-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S64x128 .f32) (main_arg3 : FVec F S64 .f32) (main_arg4 : FVec F S64x128 .f32) (main_arg5 : FVec F S64x64 .f32) (main_arg6 : FVec F S64 .f32) (main_arg7 : FVec F S64x64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x64 : Shape := ⟨2, ![1, 64]⟩
abbrev S40000x64 : Shape := ⟨2, ![40000, 64]⟩
abbrev S5000x128 : Shape := ⟨2, ![5000, 128]⟩
abbrev S5000x64 : Shape := ⟨2, ![5000, 64]⟩
abbrev S640000x64 : Shape := ⟨2, ![640000, 64]⟩

abbrev nBuf : Space → Nat
  | .hbm => 59
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S40000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x64, .f32⟩
  | .hbm, ⟨41, _⟩ => ⟨S40000x64, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x64, .f32⟩
  | .hbm, ⟨51, _⟩ => ⟨S_, .f32⟩
  | .hbm, ⟨52, _⟩ => ⟨S40000x64, .f32⟩
  | .hbm, ⟨53, _⟩ => ⟨S640000x1, .i32⟩
  | .hbm, ⟨54, _⟩ => ⟨S40000x64, .f32⟩
  | .hbm, ⟨55, _⟩ => ⟨S40000x64, .f32⟩
  | .hbm, ⟨56, _⟩ => ⟨S40000x64, .f32⟩
  | .hbm, ⟨57, _⟩ => ⟨S1x64, .f32⟩
  | .hbm, ⟨58, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S64x128, .f32⟩
  | .local _ .vmem, ⟨5, _⟩ => ⟨S1x64, .f32⟩
  | .local _ .vmem, ⟨6, _⟩ => ⟨S64x128, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S64x128_S5000x64_1_1_0_0_n_n_wf : DotDims.WF S5000x128 S64x128 S5000x64 [1] [1] [0] [0] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S40000x64.size a
  hwx0_5 : ∀ i : grid0.Coords, EltTy.bits .f32 = 32 ∨ (Rect.block (s := S40000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S40000x64.size a
  hwx1_0 : ∀ i : grid1.Coords, EltTy.bits .f32 = 32 ∨ (Rect.block (s := S40000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S40000x64.size a
  hwx1_1 : ∀ i : grid1.Coords, EltTy.bits .f32 = 32 ∨ (Rect.block (s := S40000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S40000x64.size a
  hwx1_5 : ∀ i : grid1.Coords, EltTy.bits .f32 = 32 ∨ (Rect.block (s := S40000x64) S5000x64.size (cc1_transform_5 i) (hinb1_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S128x64 : Shape := ⟨2, ![128, 64]⟩
abbrev S40000x64 : Shape := ⟨2, ![40000, 64]⟩
abbrev S1x64 : Shape := ⟨2, ![1, 64]⟩
abbrev S640000x64 : Shape := ⟨2, ![640000, 64]⟩

abbrev nBuf : Space → Nat
  | .hbm => 85
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S128x64, .f32⟩
  | .hbm, ⟨38, _⟩ => ⟨S40000x64, .f32⟩
  | .hbm, ⟨39, _⟩ => ⟨S1x64, .f32⟩
  | .hbm, ⟨40, _⟩ => ⟨S40000x64, .f32⟩
  | .hbm, ⟨41, _⟩ => ⟨S40000x64, .f32⟩
  | .hbm, ⟨42, _⟩ => ⟨S128x64, .f32⟩
  | .hbm, ⟨43, _⟩ => ⟨S40000x64, .f32⟩
  | .hbm, ⟨44, _⟩ => ⟨S40000x64, .f32⟩
  | .hbm, ⟨45, _⟩ => ⟨S_, .f32⟩
  | .hbm, ⟨46, _⟩ => ⟨S40000x64, .f32⟩
  | .hbm, ⟨47, _⟩ => ⟨S40000x64, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x64, .f32⟩
  | .hbm, ⟨61, _⟩ => ⟨S_, .f32⟩
  | .hbm, ⟨62, _⟩ => ⟨S40000x64, .f32⟩
  | .hbm, ⟨63, _⟩ => ⟨S640000x1, .i32⟩
  | .hbm, ⟨64, _⟩ => ⟨S40000x64, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S40000, .f32⟩
  | .hbm, ⟨69, _⟩ => ⟨S640000x1, .i32⟩
  | .hbm, ⟨70, _⟩ => ⟨S40000, .f32⟩
  | .hbm, ⟨71, _⟩ => ⟨S_, .f32⟩
  | .hbm, ⟨72, _⟩ => ⟨S40000, .f32⟩
  | .hbm, ⟨73, _⟩ => ⟨S40000, .f32⟩
  | .hbm, ⟨74, _⟩ => ⟨S40000x1, .f32⟩
  | .hbm, ⟨75, _⟩ => ⟨S40000x64, .f32⟩
  | .hbm, ⟨76, _⟩ => ⟨S40000x64, .f32⟩
  | .hbm, ⟨77, _⟩ => ⟨S64x64, .f32⟩
  | .hbm, ⟨78, _⟩ => ⟨S40000x64, .f32⟩
  | .hbm, ⟨79, _⟩ => ⟨S1x64, .f32⟩
  | .hbm, ⟨80, _⟩ => ⟨S40000x64, .f32⟩
  | .hbm, ⟨81, _⟩ => ⟨S40000x64, .f32⟩
  | .hbm, ⟨82, _⟩ => ⟨S64x64, .f32⟩
  | .hbm, ⟨83, _⟩ => ⟨S40000x64, .f32⟩
  | .hbm, ⟨84, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S64x128_S128x64_1_0 : S64x128.Transposes [1, 0] S128x64
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  transposes_S64x64_S64x64_1_0 : S64x64.Transposes [1, 0] S64x64
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x64_S40000x64_1_0_0_1_n_n_wf : DotDims.WF S40000x64 S64x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf

class Facts : Prop extends Facts₀ where

variable [Facts]
-- ==== Proof.KernelEntry.lean ====
/-
  The two kernel bodies' arithmetic, read at one output entry over the extended reals.

  Each body loads a block of aggregated neighbour means `a`, a block of node features `x`, two weight
  matrices `wl`, `wr` (rows = output channels) and a bias row `b`, and stores
      (a · wlᵀ + x · wrᵀ) + b          (second layer)
      max ((a · wlᵀ + x · wrᵀ) + b) 0   (first layer)
  A change of float format is the identity here and a matrix product into a zero accumulator is the plain sum over
  the contracted axis, so entry (p, q) is  Σₖ a[p,k]·wl[q,k] + Σₖ x[p,k]·wr[q,k] + b[0,q]  (then the maximum with 0).
-/
import proofs.«179625_j19636590477698_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Gen Idealize.ShloMosaic Idealize.ShloMosaic.TcCoe Idealize.ShloMosaic.ValueIdx

/-! ## The contraction of the first layer: [5000,128] against [64,128] over the second axis of both -/

theorem lhsA_0 (i : S5000x64.Idx) (q : dot_S5000x128_S64x128_S5000x64_1_1_0_0_n_n.contr.Idx) :
    (dot_S5000x128_S64x128_S5000x64_1_1_0_0_n_n.lhsIdx i q 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem lhsA_1 (i : S5000x64.Idx) (q : dot_S5000x128_S64x128_S5000x64_1_1_0_0_n_n.contr.Idx) :
    (dot_S5000x128_S64x128_S5000x64_1_1_0_0_n_n.lhsIdx i q 1).val = (q ⟨0, by decide⟩).val :=
  dot_S5000x128_S64x128_S5000x64_1_1_0_0_n_n.lhsIdx_val_of_single rfl i q
theorem rhsA_0 (i : S5000x64.Idx) (q : dot_S5000x128_S64x128_S5000x64_1_1_0_0_n_n.contr.Idx) :
    (dot_S5000x128_S64x128_S5000x64_1_1_0_0_n_n.rhsIdx i q 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem rhsA_1 (i : S5000x64.Idx) (q : dot_S5000x128_S64x128_S5000x64_1_1_0_0_n_n.contr.Idx) :
    (dot_S5000x128_S64x128_S5000x64_1_1_0_0_n_n.rhsIdx i q 1).val = (q ⟨0, by decide⟩).val :=
  dot_S5000x128_S64x128_S5000x64_1_1_0_0_n_n.rhsIdx_val_of_single rfl i q

/-- Entry (p, q) of `l · rᵀ` into a zero accumulator: the sum over the 128 shared columns. -/
theorem matmulA_apply (l : FVec Ideal S5000x128 .bf16) (r : FVec Ideal S64x128 .bf16) (p : Fin 5000) (q : Fin 64) :
    matmul dot_S5000x128_S64x128_S5000x64_1_1_0_0_n_n none l r (constant S5000x64 .f32 0x00000000#32) (ix2 p q)
      = ∑ k : Fin 128, l (ix2 p k) * r (ix2 q k) := by
  simp only [matmul]
  rw [Ideal.matmul_constant_zero_apply, ← Equiv.sum_comp (ValueIdx.contrEquiv1 dot_S5000x128_S64x128_S5000x64_1_1_0_0_n_n 128 rfl rfl).symm]
  refine Finset.sum_congr rfl fun k _ => ?_
  have hk := ValueIdx.contrEquiv1_symm_val dot_S5000x128_S64x128_S5000x64_1_1_0_0_n_n 128 rfl rfl k
  have el : dot_S5000x128_S64x128_S5000x64_1_1_0_0_n_n.lhsIdx (ix2 p q) ((ValueIdx.contrEquiv1 dot_S5000x128_S64x128_S5000x64_1_1_0_0_n_n 128 rfl rfl).symm k) = ix2 p k := funext fun a => Fin.ext (by
    match a with
    | ⟨0, _⟩ => exact lhsA_0 _ _
    | ⟨1, _⟩ => exact (lhsA_1 _ _).trans hk)
  have er : dot_S5000x128_S64x128_S5000x64_1_1_0_0_n_n.rhsIdx (ix2 p q) ((ValueIdx.contrEquiv1 dot_S5000x128_S64x128_S5000x64_1_1_0_0_n_n 128 rfl rfl).symm k) = ix2 q k := funext fun a => Fin.ext (by
    match a with
    | ⟨0, _⟩ => exact rhsA_0 _ _
    | ⟨1, _⟩ => exact (rhsA_1 _ _).trans hk)
  rw [el, er]

/-! ## The contraction of the second layer: [5000,64] against [64,64] over the second axis of both -/

theorem lhsB_0 (i : S5000x64.Idx) (q : dot_S5000x64_S64x64_S5000x64_1_1_0_0_n_n.contr.Idx) :
    (dot_S5000x64_S64x64_S5000x64_1_1_0_0_n_n.lhsIdx i q 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
theorem lhsB_1 (i : S5000x64.Idx) (q : dot_S5000x64_S64x64_S5000x64_1_1_0_0_n_n.contr.Idx) :
    (dot_S5000x64_S64x64_S5000x64_1_1_0_0_n_n.lhsIdx i q 1).val = (q ⟨0, by decide⟩).val :=
  dot_S5000x64_S64x64_S5000x64_1_1_0_0_n_n.lhsIdx_val_of_single rfl i q
theorem rhsB_0 (i : S5000x64.Idx) (q : dot_S5000x64_S64x64_S5000x64_1_1_0_0_n_n.contr.Idx) :
    (dot_S5000x64_S64x64_S5000x64_1_1_0_0_n_n.rhsIdx i q 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
theorem rhsB_1 (i : S5000x64.Idx) (q : dot_S5000x64_S64x64_S5000x64_1_1_0_0_n_n.contr.Idx) :
    (dot_S5000x64_S64x64_S5000x64_1_1_0_0_n_n.rhsIdx i q 1).val = (q ⟨0, by decide⟩).val :=
  dot_S5000x64_S64x64_S5000x64_1_1_0_0_n_n.rhsIdx_val_of_single rfl i q

/-- Entry (p, q) of `l · rᵀ` into a zero accumulator: the sum over the 64 shared columns. -/
theorem matmulB_apply (l : FVec Ideal S5000x64 .bf16) (r : FVec Ideal S64x64 .bf16) (p : Fin 5000) (q : Fin 64) :
    matmul dot_S5000x64_S64x64_S5000x64_1_1_0_0_n_n none l r (constant S5000x64 .f32 0x00000000#32) (ix2 p q)
      = ∑ k : Fin 64, l (ix2 p k) * r (ix2 q k) := by
  simp only [matmul]
  rw [Ideal.matmul_constant_zero_apply, ← Equiv.sum_comp (ValueIdx.contrEquiv1 dot_S5000x64_S64x64_S5000x64_1_1_0_0_n_n 64 rfl rfl).symm]
  refine Finset.sum_congr rfl fun k _ => ?_
  have hk := ValueIdx.contrEquiv1_symm_val dot_S5000x64_S64x64_S5000x64_1_1_0_0_n_n 64 rfl rfl k
  have el : dot_S5000x64_S64x64_S5000x64_1_1_0_0_n_n.lhsIdx (ix2 p q) ((ValueIdx.contrEquiv1 dot_S5000x64_S64x64_S5000x64_1_1_0_0_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_1_0_0_n_n.rhsIdx (ix2 p q) ((ValueIdx.contrEquiv1 dot_S5000x64_S64x64_S5000x64_1_1_0_0_n_n 64 rfl rfl).symm k) = ix2 q k := funext fun a => Fin.ext (by
    match a with
    | ⟨0, _⟩ => exact rhsB_0 _ _
    | ⟨1, _⟩ => exact (rhsB_1 _ _).trans hk)
  rw [el, er]

/-! ## The bias row spread over the rows of a block -/

/-- The [1,64] bias row broadcast to [5000,64], at (p, q), is the row's entry q. -/
theorem biasRow_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

/-! ## The stored blocks at an entry -/

/-- First layer: the stored block at (p, q). -/
theorem payA_apply (a x : Vec Ideal S5000x128 .f32) (wl wr : Vec Ideal S64x128 .f32) (b : Vec Ideal S1x64 .f32) (p : Fin 5000) (q : Fin 64) :
    k0_pay1 (F := Ideal) a x wl wr b (ix2 p q)
      = max ((∑ k : Fin 128, a (ix2 p k) * wl (ix2 q k) + ∑ k : Fin 128, x (ix2 p k) * wr (ix2 q k)) + b (ix2 (0 : Fin 1) q))
          (Ideal.ofBits .f32 0x00000000#32) := by
  unfold k0_pay1
  simp only [maximumf_apply, addf_apply, broadcast_apply, matmulA_apply, biasRow_apply, shapeCast_self, truncf_apply]
  rfl

/-- Second layer: the stored block at (p, q). -/
theorem payB_apply (a x : Vec Ideal S5000x64 .f32) (wl wr : Vec Ideal S64x64 .f32) (b : Vec Ideal S1x64 .f32) (p : Fin 5000) (q : Fin 64) :
    k1_pay1 (F := Ideal) a x wl wr b (ix2 p q)
      = (∑ k : Fin 64, a (ix2 p k) * wl (ix2 q k) + ∑ k : Fin 64, x (ix2 p k) * wr (ix2 q k)) + b (ix2 (0 : Fin 1) q) := by
  unfold k1_pay1
  simp only [addf_apply, matmulB_apply, biasRow_apply, shapeCast_self, truncf_apply]

end Cert.KernelIdeal.Layer

end
-- ==== Proof.KernelBlocksA.lean ====
/-
  The first layer's output array after its eight grid points.

  Point t of the grid stages rows 5000·t … 5000·t + 4999 of the aggregated means and of the node features, the two
  whole weight matrices and the bias row, and writes back rows 5000·t … 5000·t + 4999 of the output. What it writes at
  (p, q) depends only on row 5000·t + p of the two row-blocked operands, so every written block is the matching block of ONE
  function of the whole arrays, `layerA`: entry (r, q) is
      max (Σₖ mean[r,k]·Wl[q,k] + Σₖ x[r,k]·Wr[q,k] + b[0,q]) 0.
  The eight blocks tile the 40000 rows, so the array ends holding `layerA` of the arrays as the region found them.
-/
import proofs.«179625_j19636590477698_1_alg».proof.Proof.Gen.KernelIdeal.Frame
import proofs.«179625_j19636590477698_1_alg».proof.Proof.KernelEntry
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The first layer on whole arrays, entry by entry. -/
def layerA (a x : S40000x128.Idx → EReal) (wl wr : S64x128.Idx → EReal) (b : S1x64.Idx → EReal) : S40000x64.Idx → EReal := fun i =>
  max ((∑ k : Fin 128, a (ix2 (i 0) k) * wl (ix2 (i 1) k) + ∑ k : Fin 128, x (ix2 (i 0) k) * wr (ix2 (i 1) k)) + b (ix2 (0 : Fin 1) (i 1)))
    (Ideal.ofBits .f32 0x00000000#32)

/-- Where each window's block sits at grid point t: the row-blocked windows at block row t, the others at the origin. -/
theorem blockIndexA : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five input blocks at a grid point, at their literal types. -/
abbrev meanBlkA (c : Dev nD) (t : Fin cfg0.N) : Vec Ideal S5000x128 .f32 := iblk0 V c 0 t
abbrev featBlkA (c : Dev nD) (t : Fin cfg0.N) : Vec Ideal S5000x128 .f32 := iblk0 V c 1 t
abbrev wlBlkA (c : Dev nD) (t : Fin cfg0.N) : Vec Ideal S64x128 .f32 := iblk0 V c 2 t
abbrev biasBlkA (c : Dev nD) (t : Fin cfg0.N) : Vec Ideal S1x64 .f32 := iblk0 V c 3 t
abbrev wrBlkA (c : Dev nD) (t : Fin cfg0.N) : Vec Ideal S64x128 .f32 := iblk0 V c 4 t

theorem meanBlkA_apply (c : Dev nD) (t : Fin cfg0.N) (p : Fin 5000) (k : Fin 128) (i : S40000x128.Idx)
    (h0 : (i 0).val = t.val * 5000 + p.val) (h1 : (i 1).val = k.val) :
    meanBlkA V c t (ix2 p k) = (V c main_v24 : S40000x128.Idx → EReal) i := by
  obtain ⟨e00, e01, -⟩ := blockIndexA t
  unfold meanBlkA iblk0
  rw [View.read_apply]
  show (V c main_v24 : S40000x128.Idx → EReal) _ = _
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

theorem featBlkA_apply (c : Dev nD) (t : Fin cfg0.N) (p : Fin 5000) (k : Fin 128) (i : S40000x128.Idx)
    (h0 : (i 0).val = t.val * 5000 + p.val) (h1 : (i 1).val = k.val) :
    featBlkA V c t (ix2 p k) = (V c main_arg0 : S40000x128.Idx → EReal) i := by
  obtain ⟨-, -, e10, e11, -⟩ := blockIndexA t
  unfold featBlkA iblk0
  rw [View.read_apply]
  show (V c main_arg0 : S40000x128.Idx → EReal) _ = _
  refine congrArg _ (funext fun a => Fin.ext ?_)
  match a with
  | ⟨0, _⟩ => show win0_1.index t (0 : Fin 2) * 5000 + 1 * p.val = (i 0).val; omega
  | ⟨1, _⟩ => show win0_1.index t (1 : Fin 2) * 128 + 1 * k.val = (i 1).val; omega

theorem wlBlkA_apply (c : Dev nD) (t : Fin cfg0.N) (q : Fin 64) (k : Fin 128) (i : S64x128.Idx)
    (h0 : (i 0).val = q.val) (h1 : (i 1).val = k.val) :
    wlBlkA V c t (ix2 q k) = (V c main_arg2 : S64x128.Idx → EReal) i := by
  obtain ⟨-, -, -, -, e20, e21, -⟩ := blockIndexA t
  unfold wlBlkA iblk0
  rw [View.read_apply]
  show (V c main_arg2 : S64x128.Idx → EReal) _ = _
  refine congrArg _ (funext fun a => Fin.ext ?_)
  match a with
  | ⟨0, _⟩ => show win0_2.index t (0 : Fin 2) * 64 + 1 * q.val = (i 0).val; omega
  | ⟨1, _⟩ => show win0_2.index t (1 : Fin 2) * 128 + 1 * k.val = (i 1).val; omega

theorem biasBlkA_apply (c : Dev nD) (t : Fin cfg0.N) (q : Fin 64) (i : S1x64.Idx)
    (h0 : (i 0).val = 0) (h1 : (i 1).val = q.val) :
    biasBlkA V c t (ix2 (0 : Fin 1) q) = (V c main_v25 : S1x64.Idx → EReal) i := by
  obtain ⟨-, -, -, -, -, -, e30, e31, -⟩ := blockIndexA t
  unfold biasBlkA iblk0
  rw [View.read_apply]
  show (V c main_v25 : S1x64.Idx → EReal) _ = _
  refine congrArg _ (funext fun a => Fin.ext ?_)
  match a with
  | ⟨0, _⟩ => show win0_3.index t (0 : Fin 2) * 1 + 1 * (0 : Fin 1).val = (i 0).val; rw [h0, e30]; rfl
  | ⟨1, _⟩ => show win0_3.index t (1 : Fin 2) * 64 + 1 * q.val = (i 1).val; omega

theorem wrBlkA_apply (c : Dev nD) (t : Fin cfg0.N) (q : Fin 64) (k : Fin 128) (i : S64x128.Idx)
    (h0 : (i 0).val = q.val) (h1 : (i 1).val = k.val) :
    wrBlkA V c t (ix2 q k) = (V c main_arg4 : S64x128.Idx → EReal) i := by
  obtain ⟨-, -, -, -, -, -, -, -, e40, e41, -⟩ := blockIndexA t
  unfold wrBlkA iblk0
  rw [View.read_apply]
  show (V c main_arg4 : S64x128.Idx → EReal) _ = _
  refine congrArg _ (funext fun a => Fin.ext ?_)
  match a with
  | ⟨0, _⟩ => show win0_4.index t (0 : Fin 2) * 64 + 1 * q.val = (i 0).val; omega
  | ⟨1, _⟩ => show win0_4.index t (1 : Fin 2) * 128 + 1 * k.val = (i 1).val; omega

/-- What the body stores at (p, q) of block t is `layerA` of the whole arrays at any index i in row 5000·t + p, column q. -/
theorem entryA_eq (c : Dev nD) (t : Fin cfg0.N) (p : Fin 5000) (q : Fin 64) (i : S40000x64.Idx)
    (h0 : (i 0).val = t.val * 5000 + p.val) (h1 : (i 1).val = q.val) :
    k0_pay1 (F := Ideal) (meanBlkA V c t) (featBlkA V c t) (wlBlkA V c t) (wrBlkA V c t) (biasBlkA V c t) (ix2 p q)
      = layerA (V c main_v24) (V c main_arg0) (V c main_arg2) (V c main_arg4) (V c main_v25) i := by
  rw [payA_apply]
  unfold layerA
  have em : ∀ k : Fin 128, meanBlkA V c t (ix2 p k) = (V c main_v24 : S40000x128.Idx → EReal) (ix2 (i 0) k) :=
    fun k => meanBlkA_apply V c t p k _ h0 rfl
  have ex : ∀ k : Fin 128, featBlkA V c t (ix2 p k) = (V c main_arg0 : S40000x128.Idx → EReal) (ix2 (i 0) k) :=
    fun k => featBlkA_apply V c t p k _ h0 rfl
  have el : ∀ k : Fin 128, wlBlkA V c t (ix2 q k) = (V c main_arg2 : S64x128.Idx → EReal) (ix2 (i 1) k) :=
    fun k => wlBlkA_apply V c t q k _ h1 rfl
  have er : ∀ k : Fin 128, wrBlkA V c t (ix2 q k) = (V c main_arg4 : S64x128.Idx → EReal) (ix2 (i 1) k) :=
    fun k => wrBlkA_apply V c t q k _ h1 rfl
  have eb : biasBlkA V c t (ix2 (0 : Fin 1) q) = (V c main_v25 : S1x64.Idx → EReal) (ix2 (0 : Fin 1) (i 1)) :=
    biasBlkA_apply V c t q _ rfl h1
  simp only [em, ex, el, er, eb]

/-- WHAT POINT t WRITES BACK is block t of `layerA` of the arrays as the region finds them. -/
theorem flushedA_eq (c : Dev nD) (t : Fin cfg0.N) :
    (dat0 V c).flushed 5 t = ((cfg0.win 5).blk t).view.read (Elt Ideal)
      (layerA (V c main_v24) (V c main_arg0) (V c main_arg2) (V c main_arg4) (V c main_v25)) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S64x128) zeroOffsets, View.ld_unit_zero (S := S1x64) zeroOffsets]
  obtain ⟨-, -, -, -, -, -, -, -, -, -, e50, e51⟩ := blockIndexA t
  funext j
  obtain ⟨p, q, rfl⟩ : ∃ (p : Fin 5000) (q : Fin 64), j = ix2 p q := ⟨j 0, j 1, eq_ix2 j⟩
  rw [View.read_apply]
  refine (entryA_eq V c t p q _ ?_ ?_)
  · show win0_5.index t (0 : Fin 2) * 5000 + 1 * p.val = t.val * 5000 + p.val; omega
  · show win0_5.index t (1 : Fin 2) * 64 + 1 * q.val = q.val; omega

/-- Every row of the output lies in the block of the point that is its quotient by 5000. -/
theorem coverA (i : S40000x64.Idx) : ∃ t : Fin cfg0.N, (cfg0.win 5).flush t = true ∧ i ∈ ((cfg0.win 5).blk t).view.set := by
  have hi0 : (i 0).val < 40000 := (i 0).isLt
  have hi1 : (i 1).val < 64 := (i 1).isLt
  have hN : cfg0.N = 8 := N_0
  obtain ⟨t, ht⟩ : ∃ t : Fin cfg0.N, t.val = (i 0).val / 5000 := ⟨⟨(i 0).val / 5000, by omega⟩, rfl⟩
  refine ⟨t, flush0_5 t, ?_⟩
  obtain ⟨-, -, -, -, -, -, -, -, -, -, e50, e51⟩ := blockIndexA t
  show i ∈ ((View.whole main_v26).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE ARRAY after the region: `layerA` of the arrays the region was entered with. -/
theorem arrayA (c : Dev nD) : (dat0 V c).arrAt 5 cfg0.N
    = layerA (V c main_v24) (V c main_arg0) (V c main_arg2) (V c main_arg4) (V c main_v25) :=
  (dat0 V c).arrAt_eq_of_cover 5 _ (fun t _ => flushedA_eq V c t) coverA

end Cert.KernelIdeal.Layer

end
-- ==== Proof.KernelBlocksB.lean ====
/-
  The second layer's output array after its eight grid points.

  Point t stages rows 5000·t … 5000·t + 4999 of the aggregated hidden means and of the hidden features, the two whole
  64×64 weight matrices and the bias row, and writes back the same rows of the result. What it writes at (p, q) depends
  only on row 5000·t + p of the two row-blocked operands, so every written block is the matching block of ONE function
  of the whole arrays, `layerB`: entry (r, q) is  Σₖ mean[r,k]·Wl[q,k] + Σₖ h[r,k]·Wr[q,k] + b[0,q]  (no maximum here).
  The eight blocks tile the 40000 rows, so the array ends holding `layerB` of the arrays as the region found them.
-/
import proofs.«179625_j19636590477698_1_alg».proof.Proof.Gen.KernelIdeal.Frame
import proofs.«179625_j19636590477698_1_alg».proof.Proof.KernelEntry
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem originB : (![0, 0] : Fin 2 → Nat) = fun _ => 0 := funext fun a => by fin_cases a <;> rfl

/-- The second layer on whole arrays, entry by entry. -/
def layerB (a h : S40000x64.Idx → EReal) (wl wr : S64x64.Idx → EReal) (b : S1x64.Idx → EReal) : S40000x64.Idx → EReal := fun i =>
  (∑ k : Fin 64, a (ix2 (i 0) k) * wl (ix2 (i 1) k) + ∑ k : Fin 64, h (ix2 (i 0) k) * wr (ix2 (i 1) k)) + b (ix2 (0 : Fin 1) (i 1))

/-- Where each window's block sits at grid point t: the row-blocked windows at block row t, the others at the origin. -/
theorem blockIndexB : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The five input blocks at a grid point, at their literal types. -/
abbrev meanBlkB (c : Dev nD) (t : Fin cfg1.N) : Vec Ideal S5000x64 .f32 := iblk1 V c 0 t
abbrev hidBlkB (c : Dev nD) (t : Fin cfg1.N) : Vec Ideal S5000x64 .f32 := iblk1 V c 1 t
abbrev wlBlkB (c : Dev nD) (t : Fin cfg1.N) : Vec Ideal S64x64 .f32 := iblk1 V c 2 t
abbrev biasBlkB (c : Dev nD) (t : Fin cfg1.N) : Vec Ideal S1x64 .f32 := iblk1 V c 3 t
abbrev wrBlkB (c : Dev nD) (t : Fin cfg1.N) : Vec Ideal S64x64 .f32 := iblk1 V c 4 t

theorem meanBlkB_apply (c : Dev nD) (t : Fin cfg1.N) (p : Fin 5000) (k : Fin 64) (i : S40000x64.Idx)
    (h0 : (i 0).val = t.val * 5000 + p.val) (h1 : (i 1).val = k.val) :
    meanBlkB V c t (ix2 p k) = (V c main_v38 : S40000x64.Idx → EReal) i := by
  obtain ⟨e00, e01, -⟩ := blockIndexB t
  unfold meanBlkB iblk1
  rw [View.read_apply]
  show (V c main_v38 : S40000x64.Idx → EReal) _ = _
  refine congrArg _ (funext fun a => Fin.ext ?_)
  match a with
  | ⟨0, _⟩ => show win1_0.index t (0 : Fin 2) * 5000 + 1 * p.val = (i 0).val; omega
  | ⟨1, _⟩ => show win1_0.index t (1 : Fin 2) * 64 + 1 * k.val = (i 1).val; omega

theorem hidBlkB_apply (c : Dev nD) (t : Fin cfg1.N) (p : Fin 5000) (k : Fin 64) (i : S40000x64.Idx)
    (h0 : (i 0).val = t.val * 5000 + p.val) (h1 : (i 1).val = k.val) :
    hidBlkB V c t (ix2 p k) = (V c main_v26 : S40000x64.Idx → EReal) i := by
  obtain ⟨-, -, e10, e11, -⟩ := blockIndexB t
  unfold hidBlkB iblk1
  rw [View.read_apply]
  show (V c main_v26 : S40000x64.Idx → EReal) _ = _
  refine congrArg _ (funext fun a => Fin.ext ?_)
  match a with
  | ⟨0, _⟩ => show win1_1.index t (0 : Fin 2) * 5000 + 1 * p.val = (i 0).val; omega
  | ⟨1, _⟩ => show win1_1.index t (1 : Fin 2) * 64 + 1 * k.val = (i 1).val; omega

theorem wlBlkB_apply (c : Dev nD) (t : Fin cfg1.N) (q : Fin 64) (k : Fin 64) (i : S64x64.Idx)
    (h0 : (i 0).val = q.val) (h1 : (i 1).val = k.val) :
    wlBlkB V c t (ix2 q k) = (V c main_arg5 : S64x64.Idx → EReal) i := by
  obtain ⟨-, -, -, -, e20, e21, -⟩ := blockIndexB t
  unfold wlBlkB iblk1
  rw [View.read_apply]
  show (V c main_arg5 : S64x64.Idx → EReal) _ = _
  refine congrArg _ (funext fun a => Fin.ext ?_)
  match a with
  | ⟨0, _⟩ => show win1_2.index t (0 : Fin 2) * 64 + 1 * q.val = (i 0).val; omega
  | ⟨1, _⟩ => show win1_2.index t (1 : Fin 2) * 64 + 1 * k.val = (i 1).val; omega

theorem biasBlkB_apply (c : Dev nD) (t : Fin cfg1.N) (q : Fin 64) (i : S1x64.Idx)
    (h0 : (i 0).val = 0) (h1 : (i 1).val = q.val) :
    biasBlkB V c t (ix2 (0 : Fin 1) q) = (V c main_v39 : S1x64.Idx → EReal) i := by
  obtain ⟨-, -, -, -, -, -, e30, e31, -⟩ := blockIndexB t
  unfold biasBlkB iblk1
  rw [View.read_apply]
  show (V c main_v39 : S1x64.Idx → EReal) _ = _
  refine congrArg _ (funext fun a => Fin.ext ?_)
  match a with
  | ⟨0, _⟩ => show win1_3.index t (0 : Fin 2) * 1 + 1 * (0 : Fin 1).val = (i 0).val; rw [h0, e30]; rfl
  | ⟨1, _⟩ => show win1_3.index t (1 : Fin 2) * 64 + 1 * q.val = (i 1).val; omega

theorem wrBlkB_apply (c : Dev nD) (t : Fin cfg1.N) (q : Fin 64) (k : Fin 64) (i : S64x64.Idx)
    (h0 : (i 0).val = q.val) (h1 : (i 1).val = k.val) :
    wrBlkB V c t (ix2 q k) = (V c main_arg7 : S64x64.Idx → EReal) i := by
  obtain ⟨-, -, -, -, -, -, -, -, e40, e41, -⟩ := blockIndexB t
  unfold wrBlkB iblk1
  rw [View.read_apply]
  show (V c main_arg7 : S64x64.Idx → EReal) _ = _
  refine congrArg _ (funext fun a => Fin.ext ?_)
  match a with
  | ⟨0, _⟩ => show win1_4.index t (0 : Fin 2) * 64 + 1 * q.val = (i 0).val; omega
  | ⟨1, _⟩ => show win1_4.index t (1 : Fin 2) * 64 + 1 * k.val = (i 1).val; omega

/-- What the body stores at (p, q) of block t is `layerB` of the whole arrays at any index i in row 5000·t + p, column q. -/
theorem entryB_eq (c : Dev nD) (t : Fin cfg1.N) (p : Fin 5000) (q : Fin 64) (i : S40000x64.Idx)
    (h0 : (i 0).val = t.val * 5000 + p.val) (h1 : (i 1).val = q.val) :
    k1_pay1 (F := Ideal) (meanBlkB V c t) (hidBlkB V c t) (wlBlkB V c t) (wrBlkB V c t) (biasBlkB V c t) (ix2 p q)
      = layerB (V c main_v38) (V c main_v26) (V c main_arg5) (V c main_arg7) (V c main_v39) i := by
  rw [payB_apply]
  unfold layerB
  have em : ∀ k : Fin 64, meanBlkB V c t (ix2 p k) = (V c main_v38 : S40000x64.Idx → EReal) (ix2 (i 0) k) :=
    fun k => meanBlkB_apply V c t p k _ h0 rfl
  have eh : ∀ k : Fin 64, hidBlkB V c t (ix2 p k) = (V c main_v26 : S40000x64.Idx → EReal) (ix2 (i 0) k) :=
    fun k => hidBlkB_apply V c t p k _ h0 rfl
  have el : ∀ k : Fin 64, wlBlkB V c t (ix2 q k) = (V c main_arg5 : S64x64.Idx → EReal) (ix2 (i 1) k) :=
    fun k => wlBlkB_apply V c t q k _ h1 rfl
  have er : ∀ k : Fin 64, wrBlkB V c t (ix2 q k) = (V c main_arg7 : S64x64.Idx → EReal) (ix2 (i 1) k) :=
    fun k => wrBlkB_apply V c t q k _ h1 rfl
  have eb : biasBlkB V c t (ix2 (0 : Fin 1) q) = (V c main_v39 : S1x64.Idx → EReal) (ix2 (0 : Fin 1) (i 1)) :=
    biasBlkB_apply V c t q _ rfl h1
  simp only [em, eh, el, er, eb]

/-- WHAT POINT t WRITES BACK is block t of `layerB` of the arrays as the region finds them. -/
theorem flushedB_eq (c : Dev nD) (t : Fin cfg1.N) :
    (dat1 V c).flushed 5 t = ((cfg1.win 5).blk t).view.read (Elt Ideal)
      (layerB (V c main_v38) (V c main_v26) (V c main_arg5) (V c main_arg7) (V c main_v39)) := by
  show (cfg1.win 5).cut (grid1.coords t) ((dat1 V c).after 5 t) = _
  rw [after1_5]
  unfold out1_5
  rw [View.canon_unit_zero originB]
  simp only [View.ld_unit_zero (S := S5000x64) originB, View.ld_unit_zero (S := S64x64) originB, View.ld_unit_zero (S := S1x64) originB]
  obtain ⟨-, -, -, -, -, -, -, -, -, -, e50, e51⟩ := blockIndexB t
  funext j
  obtain ⟨p, q, rfl⟩ : ∃ (p : Fin 5000) (q : Fin 64), j = ix2 p q := ⟨j 0, j 1, eq_ix2 j⟩
  rw [View.read_apply]
  refine (entryB_eq V c t p q _ ?_ ?_)
  · show win1_5.index t (0 : Fin 2) * 5000 + 1 * p.val = t.val * 5000 + p.val; omega
  · show win1_5.index t (1 : Fin 2) * 64 + 1 * q.val = q.val; omega

/-- Every row of the result lies in the block of the point that is its quotient by 5000. -/
theorem coverB (i : S40000x64.Idx) : ∃ t : Fin cfg1.N, (cfg1.win 5).flush t = true ∧ i ∈ ((cfg1.win 5).blk t).view.set := by
  have hi0 : (i 0).val < 40000 := (i 0).isLt
  have hi1 : (i 1).val < 64 := (i 1).isLt
  have hN : cfg1.N = 8 := N_1
  obtain ⟨t, ht⟩ : ∃ t : Fin cfg1.N, t.val = (i 0).val / 5000 := ⟨⟨(i 0).val / 5000, by omega⟩, rfl⟩
  refine ⟨t, flush1_5 t, ?_⟩
  obtain ⟨-, -, -, -, -, -, -, -, -, -, e50, e51⟩ := blockIndexB t
  show i ∈ ((View.whole main_v40).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the region: `layerB` of the arrays the region was entered with. -/
theorem arrayB (c : Dev nD) : (dat1 V c).arrAt 5 cfg1.N
    = layerB (V c main_v38) (V c main_v26) (V c main_arg5) (V c main_arg7) (V c main_v39) :=
  (dat1 V c).arrAt_eq_of_cover 5 _ (fun t _ => flushedB_eq V c t) coverB

end Cert.KernelIdeal.Layer

end
-- ==== Proof.KernelHost.lean ====
/-
  The host side of the kernel's program: what the operations around the two kernel regions compute, as functions of
  the arguments.

  From the edge list e (row 0 the sources, row 1 the targets):  the in-degree of node r is the number of edges whose
  target is r, and `invDeg` is the column  1 / max(degree, 1).  For a feature array f, `sums` adds row src(j) of f
  into row dst(j) for every edge j (a row gather followed by a scatter-add; a negative source id is first wrapped by
  the row count), and the neighbour mean handed to a kernel region is  sums · invDeg, the column spread along the rows.
  The first region reads the mean of x; the second reads the mean of the first region's output.
-/
import proofs.«179625_j19636590477698_1_alg».proof.Proof.Gen.KernelIdeal.Frame
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The edges' source ids. -/
def srcOf (e : (⟨S2x640000, .i32⟩ : BufTy).Contents (Elt F)) : (⟨S640000, .i32⟩ : BufTy).Contents (Elt F) :=
  shapeCast S640000 (extractStridedSlice S1x640000 ![0, 0] e slices_S2x640000_S1x640000_0_0) shapeCasts_S1x640000_S640000
/-- The edges' target ids. -/
def dstOf (e : (⟨S2x640000, .i32⟩ : BufTy).Contents (Elt F)) : (⟨S640000, .i32⟩ : BufTy).Contents (Elt F) :=
  shapeCast S640000 (extractStridedSlice S1x640000 ![1, 0] e slices_S2x640000_S1x640000_1_0) shapeCasts_S1x640000_S640000
/-- An id vector as a column of index vectors. -/
def col (d : (⟨S640000, .i32⟩ : BufTy).Contents (Elt F)) : (⟨S640000x1, .i32⟩ : BufTy).Contents (Elt F) :=
  broadcastInDim S640000x1 ![0] bcast_S640000_S640000x1_0 d
/-- Source ids with a negative id wrapped by the row count, as a column. -/
def wrapCol (s : (⟨S640000, .i32⟩ : BufTy).Contents (Elt F)) : (⟨S640000x1, .i32⟩ : BufTy).Contents (Elt F) :=
  col (select (cmpi .slt s (broadcastInDim S640000 ![] bcast_S_S640000 (constantI S_ 32 0#32)))
    (addi s (broadcastInDim S640000 ![] bcast_S_S640000 (constantI S_ 32 40000#32))) s)
/-- The in-degree of every node: a one added at its id for every edge that targets it. -/
def deg (d : (⟨S640000, .i32⟩ : BufTy).Contents (Elt F)) : (⟨S40000, .f32⟩ : BufTy).Contents (Elt F) :=
  Host.scatterAdd scatter_S40000_S640000x1_S640000_n_0_0_1 (broadcastInDim S40000 ![] bcast_S_S40000 (constant S_ .f32 0x00000000#32)) (col d)
    (broadcastInDim S640000 ![] bcast_S_S640000 (constant S_ .f32 0x3F800000#32))
/-- The column 1 / max(in-degree, 1). -/
def invDeg (d : (⟨S640000, .i32⟩ : BufTy).Contents (Elt F)) : (⟨S40000x1, .f32⟩ : BufTy).Contents (Elt F) :=
  broadcastInDim S40000x1 ![0] bcast_S40000_S40000x1_0
    (Host.divf (broadcastInDim S40000 ![] bcast_S_S40000 (constant S_ .f32 0x3F800000#32))
      (maximumf (deg d) (broadcastInDim S40000 ![] bcast_S_S40000 (constant S_ .f32 0x3F800000#32))))
/-- Neighbour sums of the 128-wide features. -/
def sumsA (x : (⟨S40000x128, .f32⟩ : BufTy).Contents (Elt F)) (e : (⟨S2x640000, .i32⟩ : BufTy).Contents (Elt F)) : (⟨S40000x128, .f32⟩ : BufTy).Contents (Elt F) :=
  Host.scatterAdd scatter_S40000x128_S640000x1_S640000x128_1_0_0_1 (broadcastInDim S40000x128 ![] bcast_S_S40000x128 (constant S_ .f32 0x00000000#32)) (col (dstOf e))
    (Host.gather gather_S40000x128_S640000x1_S640000x128_1_0_n_n_0_1_1128 x (wrapCol (srcOf e)))
/-- Neighbour means of the 128-wide features, as the first region reads them. -/
def meanA (x : (⟨S40000x128, .f32⟩ : BufTy).Contents (Elt F)) (e : (⟨S2x640000, .i32⟩ : BufTy).Contents (Elt F)) : (⟨S40000x128, .f32⟩ : BufTy).Contents (Elt F) :=
  mulf (sumsA x e) (broadcastInDim S40000x128 ![0, 1] bcast_S40000x1_S40000x128_0_1 (invDeg (dstOf e)))
/-- Neighbour sums of the 64-wide hidden features. -/
def sumsB (h : (⟨S40000x64, .f32⟩ : BufTy).Contents (Elt F)) (e : (⟨S2x640000, .i32⟩ : BufTy).Contents (Elt F)) : (⟨S40000x64, .f32⟩ : BufTy).Contents (Elt F) :=
  Host.scatterAdd scatter_S40000x64_S640000x1_S640000x64_1_0_0_1 (broadcastInDim S40000x64 ![] bcast_S_S40000x64 (constant S_ .f32 0x00000000#32)) (col (dstOf e))
    (Host.gather gather_S40000x64_S640000x1_S640000x64_1_0_n_n_0_1_164 h (wrapCol (srcOf e)))
/-- Neighbour means of the 64-wide hidden features, as the second region reads them. -/
def meanB (h : (⟨S40000x64, .f32⟩ : BufTy).Contents (Elt F)) (e : (⟨S2x640000, .i32⟩ : BufTy).Contents (Elt F)) : (⟨S40000x64, .f32⟩ : BufTy).Contents (Elt F) :=
  mulf (sumsB h e) (broadcastInDim S40000x64 ![0, 1] bcast_S40000x1_S40000x64_0_1 (invDeg (dstOf e)))
/-- A bias vector as a one-row matrix. -/
def biasRow (b : (⟨S64, .f32⟩ : BufTy).Contents (Elt F)) : (⟨S1x64, .f32⟩ : BufTy).Contents (Elt F) :=
  shapeCast S1x64 b shapeCasts_S64_S1x64

variable (m : (ℓ : Loc nD τ sig) → Buf (Elt F) ℓ) (ρ : Dev nD → PrngReg)

/-! ## What the first region finds -/

theorem entryA_mean (c : Dev nD) : V1 m ρ c main_v24 = meanA (m ((c : Thread nD τ).loc main_arg0)) (m ((c : Thread nD τ).loc main_arg1)) := by
  show StableHlo.after hostOps0 (W0 m ρ c) (Proc.devRef .tc main_v24) = _
  after_results_simp
  rfl

theorem entryA_feat (c : Dev nD) : V1 m ρ c main_arg0 = m ((c : Thread nD τ).loc main_arg0) := by
  show StableHlo.after hostOps0 (W0 m ρ c) (Proc.devRef .tc main_arg0) = _
  after_results_simp
theorem entryA_wl (c : Dev nD) : V1 m ρ c main_arg2 = m ((c : Thread nD τ).loc main_arg2) := by
  show StableHlo.after hostOps0 (W0 m ρ c) (Proc.devRef .tc main_arg2) = _
  after_results_simp
theorem entryA_wr (c : Dev nD) : V1 m ρ c main_arg4 = m ((c : Thread nD τ).loc main_arg4) := by
  show StableHlo.after hostOps0 (W0 m ρ c) (Proc.devRef .tc main_arg4) = _
  after_results_simp
theorem entryA_bias (c : Dev nD) : V1 m ρ c main_v25 = biasRow (m ((c : Thread nD τ).loc main_arg3)) := by
  show StableHlo.after hostOps0 (W0 m ρ c) (Proc.devRef .tc main_v25) = _
  after_results_simp
  rfl

/-! ## What the first stretch leaves for the second: the edge ids and the degree column -/

theorem first_src (c : Dev nD) : W1 m ρ c (Proc.devRef .tc main_v1) = srcOf (m ((c : Thread nD τ).loc main_arg1)) := by
  show StableHlo.after hostOps0 (W0 m ρ c) (Proc.devRef .tc main_v1) = _
  after_results_simp
  rfl
theorem first_dst (c : Dev nD) : W1 m ρ c (Proc.devRef .tc main_v3) = dstOf (m ((c : Thread nD τ).loc main_arg1)) := by
  show StableHlo.after hostOps0 (W0 m ρ c) (Proc.devRef .tc main_v3) = _
  after_results_simp
  rfl
theorem first_invDeg (c : Dev nD) : W1 m ρ c (Proc.devRef .tc main_v12) = invDeg (dstOf (m ((c : Thread nD τ).loc main_arg1))) := by
  show StableHlo.after hostOps0 (W0 m ρ c) (Proc.devRef .tc main_v12) = _
  after_results_simp
  rfl
theorem first_arg5 (c : Dev nD) : W1 m ρ c (Proc.devRef .tc main_arg5) = m ((c : Thread nD τ).loc main_arg5) := by
  show StableHlo.after hostOps0 (W0 m ρ c) (Proc.devRef .tc main_arg5) = _
  after_results_simp
theorem first_arg6 (c : Dev nD) : W1 m ρ c (Proc.devRef .tc main_arg6) = m ((c : Thread nD τ).loc main_arg6) := by
  show StableHlo.after hostOps0 (W0 m ρ c) (Proc.devRef .tc main_arg6) = _
  after_results_simp
theorem first_arg7 (c : Dev nD) : W1 m ρ c (Proc.devRef .tc main_arg7) = m ((c : Thread nD τ).loc main_arg7) := by
  show StableHlo.after hostOps0 (W0 m ρ c) (Proc.devRef .tc main_arg7) = _
  after_results_simp

/-! ## Across the first region: only its own arrays change, and its output array is what its points wrote -/

theorem mid_src (c : Dev nD) : W2 m ρ c (Proc.devRef .tc main_v1) = srcOf (m ((c : Thread nD τ).loc main_arg1)) :=
  (W2_of_ne m ρ c main_v1 (by decide)).trans (first_src m ρ c)
theorem mid_dst (c : Dev nD) : W2 m ρ c (Proc.devRef .tc main_v3) = dstOf (m ((c : Thread nD τ).loc main_arg1)) :=
  (W2_of_ne m ρ c main_v3 (by decide)).trans (first_dst m ρ c)
theorem mid_invDeg (c : Dev nD) : W2 m ρ c (Proc.devRef .tc main_v12) = invDeg (dstOf (m ((c : Thread nD τ).loc main_arg1))) :=
  (W2_of_ne m ρ c main_v12 (by decide)).trans (first_invDeg m ρ c)
theorem mid_arg5 (c : Dev nD) : W2 m ρ c (Proc.devRef .tc main_arg5) = m ((c : Thread nD τ).loc main_arg5) :=
  (W2_of_ne m ρ c main_arg5 (by decide)).trans (first_arg5 m ρ c)
theorem mid_arg6 (c : Dev nD) : W2 m ρ c (Proc.devRef .tc main_arg6) = m ((c : Thread nD τ).loc main_arg6) :=
  (W2_of_ne m ρ c main_arg6 (by decide)).trans (first_arg6 m ρ c)
theorem mid_arg7 (c : Dev nD) : W2 m ρ c (Proc.devRef .tc main_arg7) = m ((c : Thread nD τ).loc main_arg7) :=
  (W2_of_ne m ρ c main_arg7 (by decide)).trans (first_arg7 m ρ c)
theorem mid_hidden (c : Dev nD) : W2 m ρ c (Proc.devRef .tc main_v26) = (dat0 (V1 m ρ) c).arrAt 5 cfg0.N :=
  W2_arr m ρ c 5

/-! ## What the second region finds -/

theorem entryB_mean (c : Dev nD) : V3 m ρ c main_v38
    = meanB (W2 m ρ c (Proc.devRef .tc main_v26)) (m ((c : Thread nD τ).loc main_arg1)) := by
  show StableHlo.after hostOps1 (W2 m ρ c) (Proc.devRef .tc main_v38) = _
  after_results_simp
  rw [mid_src, mid_dst, mid_invDeg]
  rfl
theorem entryB_hidden (c : Dev nD) : V3 m ρ c main_v26 = W2 m ρ c (Proc.devRef .tc main_v26) := by
  show StableHlo.after hostOps1 (W2 m ρ c) (Proc.devRef .tc main_v26) = _
  after_results_simp
theorem entryB_wl (c : Dev nD) : V3 m ρ c main_arg5 = m ((c : Thread nD τ).loc main_arg5) := by
  show StableHlo.after hostOps1 (W2 m ρ c) (Proc.devRef .tc main_arg5) = _
  after_results_simp
  exact mid_arg5 m ρ c
theorem entryB_wr (c : Dev nD) : V3 m ρ c main_arg7 = m ((c : Thread nD τ).loc main_arg7) := by
  show StableHlo.after hostOps1 (W2 m ρ c) (Proc.devRef .tc main_arg7) = _
  after_results_simp
  exact mid_arg7 m ρ c
theorem entryB_bias (c : Dev nD) : V3 m ρ c main_v39 = biasRow (m ((c : Thread nD τ).loc main_arg6)) := by
  show StableHlo.after hostOps1 (W2 m ρ c) (Proc.devRef .tc main_v39) = _
  after_results_simp
  rw [mid_arg6]
  rfl

end Cert.KernelIdeal.Host

end
-- ==== Proof.KernelValue.lean ====
/-
  The kernel program's result as ONE function of its eight arguments, over the extended reals.

  `hiddenOf` is the first layer: the maximum with zero of  mean(x) · W1lᵀ + x · W1rᵀ + b1, where mean(x) are the
  degree-normalised neighbour sums of x. `network` is the second layer applied to it without the maximum:
  mean(hidden) · W2lᵀ + hidden · W2rᵀ + b2. The first region's output array is `hiddenOf` of the arguments (its
  operands are what the first host stretch left), the second stretch forms the mean of that array, and the second
  region's output array, which is the program's result, is `network` of the arguments.
-/
import proofs.«179625_j19636590477698_1_alg».proof.Proof.KernelBlocksA
import proofs.«179625_j19636590477698_1_alg».proof.Proof.KernelBlocksB
import proofs.«179625_j19636590477698_1_alg».proof.Proof.KernelHost
import proofs.«179625_j19636590477698_1_alg».proof.Proof.KernelRun

set_option maxRecDepth 16384

noncomputable section

namespace Cert.KernelIdeal.Result

open Cert.KernelIdeal Cert.KernelIdeal.Gen Cert.KernelIdeal.Layer Cert.KernelIdeal.Host
open Idealize.ShloMosaic Idealize.ShloMosaic.TcCoe Idealize.SL.Sem

/-- The first layer of the arguments. -/
def hiddenOf (x : (⟨S40000x128, .f32⟩ : BufTy).Contents (Elt Ideal)) (e : (⟨S2x640000, .i32⟩ : BufTy).Contents (Elt Ideal))
    (w1l : (⟨S64x128, .f32⟩ : BufTy).Contents (Elt Ideal)) (b1 : (⟨S64, .f32⟩ : BufTy).Contents (Elt Ideal))
    (w1r : (⟨S64x128, .f32⟩ : BufTy).Contents (Elt Ideal)) : (⟨S40000x64, .f32⟩ : BufTy).Contents (Elt Ideal) :=
  layerA (meanA x e) x w1l w1r (biasRow b1)

/-- The whole network of the arguments. -/
def network (x : (⟨S40000x128, .f32⟩ : BufTy).Contents (Elt Ideal)) (e : (⟨S2x640000, .i32⟩ : BufTy).Contents (Elt Ideal))
    (w1l : (⟨S64x128, .f32⟩ : BufTy).Contents (Elt Ideal)) (b1 : (⟨S64, .f32⟩ : BufTy).Contents (Elt Ideal))
    (w1r : (⟨S64x128, .f32⟩ : BufTy).Contents (Elt Ideal)) (w2l : (⟨S64x64, .f32⟩ : BufTy).Contents (Elt Ideal))
    (b2 : (⟨S64, .f32⟩ : BufTy).Contents (Elt Ideal)) (w2r : (⟨S64x64, .f32⟩ : BufTy).Contents (Elt Ideal)) :
    (⟨S40000x64, .f32⟩ : BufTy).Contents (Elt Ideal) :=
  layerB (meanB (hiddenOf x e w1l b1 w1r) e) (hiddenOf x e w1l b1 w1r) w2l w2r (biasRow b2)

variable (m : (ℓ : Loc nD τ sig) → Buf (Elt Ideal) ℓ) (ρ : Dev nD → PrngReg)

/-- Between the regions the hidden array holds the first layer of the arguments. -/
theorem hiddenOf_eq (c : Dev nD) : W2 m ρ c (Proc.devRef .tc main_v26)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  rw [mid_hidden, arrayA (V1 m ρ) c, entryA_mean, entryA_feat, entryA_wl, entryA_wr, entryA_bias]
  rfl

/-- After the last region the result array holds the network of the arguments. -/
theorem result_eq (c : Dev nD) : W4 m ρ c (Proc.devRef .tc main_v40) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v40) = (dat1 (V3 m ρ) c).arrAt 5 cfg1.N from W4_arr m ρ c 5, arrayB (V3 m ρ) c,
    entryB_mean, entryB_hidden, entryB_wl, entryB_wr, entryB_bias, hiddenOf_eq]
  rfl

/-- The kernel program's run, read: the result at the network of the arguments, the arguments unchanged. -/
theorem run : θ_run defs (onTc (τ := τ) (main (F := Ideal))) ⟨m, fun _ => 0, ρ⟩ (fun r => ∀ c : Dev nD,
      r.2.mem ((c.tc : Thread nD τ).loc main_v40) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_result m ρ)

end Cert.KernelIdeal.Result

end
-- ==== Proof.KernelMean.lean ====
/-
  The neighbour means the two kernel regions read, at one entry, over the extended reals.

  Entry (r, k) of a mean is the neighbour sum at (r, k) times the degree column's entry for row r, and that entry is
  1 / max(degree r, 1): the column is a one-element-wide array spread along the feature axis, and before that a vector
  spread into a column, so reading it at (r, k) reads the vector at r.
-/
import proofs.«179625_j19636590477698_1_alg».proof.Proof.KernelHost
import Idealize.ShloMosaic.Lib.Pipeline.Value
import Idealize.ShloMosaic.Lib.ValueIdx
import Idealize.ShloMosaic.Lib.IdealHost

noncomputable section

namespace Cert.KernelIdeal.Host

open Cert.KernelIdeal Cert.KernelIdeal.Gen Idealize.ShloMosaic Idealize.ShloMosaic.TcCoe Idealize.ShloMosaic.ValueIdx

/-- The degree column at row r (its one column) is 1 / max(degree r, 1). -/
theorem invDeg_apply (d : (⟨S640000, .i32⟩ : BufTy).Contents (Elt Ideal)) (r : Fin 40000) :
    invDeg (F := Ideal) d (ix2 r (0 : Fin 1)) = Ideal.div 1 (max (deg (F := Ideal) d (ix1 r)) 1) := by
  unfold invDeg
  generalize deg (F := Ideal) d = D
  rw [broadcastInDim_apply ![0] bcast_S40000_S40000x1_0 _ (ix2 r (0 : Fin 1)) (ix1 r) (fun a => match a with
    | ⟨0, _⟩ => by show r.val = if (40000 : Nat) = 1 then 0 else r.val; rw [if_neg (by decide)])]
  have quot : ∀ (a b : FVec Ideal S40000 .f32) (j : S40000.Idx), Host.divf a b j = Ideal.div (a j) (b j) := fun _ _ _ => rfl
  have ones : ∀ j : S40000.Idx, broadcastInDim S40000 ![] bcast_S_S40000 (constant (F := Ideal) S_ .f32 0x3F800000#32) j = Ideal.ofBits .f32 0x3F800000#32 :=
    fun _ => rfl
  rw [quot, maximumf_apply, ones, Ideal.ofBits_one_f32]

/-- The first region's mean at (r, k). -/
theorem meanA_apply (x : (⟨S40000x128, .f32⟩ : BufTy).Contents (Elt Ideal)) (e : (⟨S2x640000, .i32⟩ : BufTy).Contents (Elt Ideal))
    (r : Fin 40000) (k : Fin 128) :
    meanA (F := Ideal) x e (ix2 r k) = sumsA (F := Ideal) x e (ix2 r k) * Ideal.div 1 (max (deg (F := Ideal) (dstOf e) (ix1 r)) 1) := by
  unfold meanA
  rw [mulf_apply, broadcastInDim_apply ![0, 1] bcast_S40000x1_S40000x128_0_1 _ (ix2 r k) (ix2 r (0 : Fin 1)) (fun a => match a with
    | ⟨0, _⟩ => by show r.val = if (40000 : Nat) = 1 then 0 else r.val; rw [if_neg (by decide)]
    | ⟨1, _⟩ => by show (0 : Nat) = if (1 : Nat) = 1 then 0 else k.val; rw [if_pos rfl]), invDeg_apply]

/-- The second region's mean at (r, k). -/
theorem meanB_apply (h : (⟨S40000x64, .f32⟩ : BufTy).Contents (Elt Ideal)) (e : (⟨S2x640000, .i32⟩ : BufTy).Contents (Elt Ideal))
    (r : Fin 40000) (k : Fin 64) :
    meanB (F := Ideal) h e (ix2 r k) = sumsB (F := Ideal) h e (ix2 r k) * Ideal.div 1 (max (deg (F := Ideal) (dstOf e) (ix1 r)) 1) := by
  unfold meanB
  rw [mulf_apply, broadcastInDim_apply ![0, 1] bcast_S40000x1_S40000x64_0_1 _ (ix2 r k) (ix2 r (0 : Fin 1)) (fun a => match a with
    | ⟨0, _⟩ => by show r.val = if (40000 : Nat) = 1 then 0 else r.val; rw [if_neg (by decide)]
    | ⟨1, _⟩ => by show (0 : Nat) = if (1 : Nat) = 1 then 0 else k.val; rw [if_pos rfl]), invDeg_apply]

/-- A bias vector as a one-row matrix, at (0, q), is the vector's entry q. -/
theorem biasRow_at (b : (⟨S64, .f32⟩ : BufTy).Contents (Elt Ideal)) (q : Fin 64) :
    biasRow (F := Ideal) b (ix2 (0 : Fin 1) q) = b (ix1 q) := by
  unfold biasRow
  exact shapeCast_apply b shapeCasts_S64_S1x64 (ix2 (0 : Fin 1) q) (ix1 q) (by
    rw [Shape.rowMajor_val_one, Shape.rowMajor_val_two]; show q.val = 0 * 64 + q.val; omega)

end Cert.KernelIdeal.Host

end
-- ==== Proof.MeanLaw.lean ====
/-
  The one law on the extended reals that joins the two programs.

  The kernel's program multiplies a neighbour sum by the reciprocal 1 / max(d, 1) of the clamped in-degree; the
  reference divides the sum by max(d, 1). A quotient by a divisor that is not zero is the product with the divisor's
  inverse, and max(d, 1) ≥ 1 > 0 is never zero whatever d is, so the two agree on every extended real, the infinities
  included. The kernel adds its two matrix products before the bias and the reference adds the bias in between:
  addition of extended reals is commutative and associative, so that reordering is free as well.
-/
import Idealize.ShloMosaic.PureOps.Ideal
import Idealize.ShloMosaic.Lib.IdealHost

noncomputable section

namespace Cert.MeanLaw

open Idealize.ShloMosaic

/-- A degree clamped from below by one is not zero. -/
theorem clamp_ne_zero (d : EReal) : max d 1 ≠ 0 :=
  ne_of_gt (lt_of_lt_of_le zero_lt_one (le_max_right d 1))

/-- s · (1 / max(d, 1)) = s / max(d, 1), for every extended real s and d. -/
theorem mul_recip_clamp (s d : EReal) : s * Ideal.div 1 (max d 1) = Ideal.div s (max d 1) := by
  unfold Ideal.div
  rw [if_neg (clamp_ne_zero d), if_neg (clamp_ne_zero d), one_mul]

/-- One output entry of a layer: the kernel's grouping on the left, the reference's on the right. -/
theorem entry_law {ι : Type} [Fintype ι] (s wl x wr : ι → EReal) (d b : EReal) :
    (∑ k, (s k * Ideal.div 1 (max d 1)) * wl k + ∑ k, x k * wr k) + b
      = (∑ k, Ideal.div (s k) (max d 1) * wl k + b) + ∑ k, x k * wr k := by
  simp only [mul_recip_clamp]
  exact add_right_comm _ _ _

end Cert.MeanLaw

end
-- ==== Proof.Reference.lean ====
/-
  The reference program computes the same function of the arguments as the kernel's program, over the extended reals.

  The reference's layer is  (mean · Wlᵀ + b) + x · Wrᵀ  with  mean = sums / max(degree, 1), its weight matrices
  transposed first and its bias spread over the rows; the kernel's is  (mean' · Wlᵀ + x · Wrᵀ) + b  with
  mean' = sums · (1 / max(degree, 1)) and the weights contracted over their second axis. The neighbour sums and the
  degrees are the same gather and scatter-add of the same edge ids on both sides. Entry by entry the two layers are then
  the two sides of `Cert.MeanLaw.entry_law`; the first layer's maximum with zero is the same operation on both sides, and
  the second layer is the first one's text at width 64 applied to equal hidden arrays.
-/
import proofs.«179625_j19636590477698_1_alg».proof.Proof.Gen.ReferenceIdeal.Run
import proofs.«179625_j19636590477698_1_alg».proof.Proof.Gen.ReferenceIdeal.Read
import proofs.«179625_j19636590477698_1_alg».proof.Proof.KernelValue
import proofs.«179625_j19636590477698_1_alg».proof.Proof.KernelMean
import proofs.«179625_j19636590477698_1_alg».proof.Proof.MeanLaw

set_option maxRecDepth 16384

noncomputable section

namespace Cert.Bridge

open Cert.KernelIdeal Cert.KernelIdeal.Layer Cert.KernelIdeal.Host Cert.KernelIdeal.Result
open Idealize.ShloMosaic Idealize.ShloMosaic.TcCoe Idealize.ShloMosaic.ValueIdx
open Cert.ReferenceIdeal.Read

/-! ## The shared host operations: the same terms on both sides -/

/-- The reference's neighbour sums of x are the kernel program's. -/
theorem ref_sumsA (x0 : (⟨S40000x128, .f32⟩ : BufTy).Contents (Elt Ideal)) (x1 : (⟨S2x640000, .i32⟩ : BufTy).Contents (Elt Ideal)) :
    val_main_v13 (F := Ideal) x0 x1 = sumsA (F := Ideal) x0 x1 := rfl

/-- The reference's in-degrees (counted again for each layer) are the kernel program's. -/
theorem ref_degA (x1 : (⟨S2x640000, .i32⟩ : BufTy).Contents (Elt Ideal)) :
    val_main_v17 (F := Ideal) x1 = deg (F := Ideal) (dstOf x1) := rfl
theorem ref_degB (x1 : (⟨S2x640000, .i32⟩ : BufTy).Contents (Elt Ideal)) :
    val_main_v49 (F := Ideal) x1 = deg (F := Ideal) (dstOf x1) := rfl

/-! ## The first layer -/

/-- The reference's hidden features are the kernel program's. -/
theorem ref_hidden (x0 : (⟨S40000x128, .f32⟩ : BufTy).Contents (Elt Ideal)) (x1 : (⟨S2x640000, .i32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal)) :
    val_main_v31 (F := Ideal) x0 x1 x2 x3 x4 = hiddenOf x0 x1 x2 x3 x4 := by
  funext i
  obtain ⟨r, q, rfl⟩ : ∃ (r : Fin 40000) (q : Fin 64), i = ix2 r q := ⟨i 0, i 1, eq_ix2 i⟩
  rw [val_main_v31_apply, val_main_v30_apply, val_main_v27_apply, val_main_v24_apply, val_main_v29_apply, val_main_v26_apply, val_main_v25_apply, val_main_call0_v0_apply, val_main_call0_cst_apply]
  simp only [val_main_v22_apply, val_main_v21_apply, val_main_v20_apply, val_main_v19_apply, val_main_v18_apply, val_main_cst_3_apply, val_main_v23_apply, val_main_v28_apply]
  unfold hiddenOf layerA
  simp only [meanA_apply, biasRow_at]
  have c0 : (ix2 r q : S40000x64.Idx) 0 = r := rfl
  have c1 : (ix2 r q : S40000x64.Idx) 1 = q := rfl
  have i24l : ∀ k : Fin 128, lidx_main_v24 (ix2 r q) k = ix2 r k := fun k => funext fun a => match a with
    | ⟨0, _⟩ => rfl
    | ⟨1, _⟩ => rfl
  have i20 : ∀ k : Fin 128, idx_main_v20 (idx_main_v21 (ix2 r k)) = ix1 r := fun k => funext fun a => match a with
    | ⟨0, _⟩ => rfl
  have i23 : ∀ k : Fin 128, idx_main_v23 (ridx_main_v24 (ix2 r q) k) = ix2 q k := fun k => funext fun a => match a with
    | ⟨0, _⟩ => rfl
    | ⟨1, _⟩ => rfl
  have i25 : idx_main_v25 (idx_main_v26 (ix2 r q)) = ix1 q := funext fun a => match a with
    | ⟨0, _⟩ => rfl
  have i29l : ∀ k : Fin 128, lidx_main_v29 (ix2 r q) k = ix2 r k := fun k => funext fun a => match a with
    | ⟨0, _⟩ => rfl
    | ⟨1, _⟩ => rfl
  have i28 : ∀ k : Fin 128, idx_main_v28 (ridx_main_v29 (ix2 r q) k) = ix2 q k := fun k => funext fun a => match a with
    | ⟨0, _⟩ => rfl
    | ⟨1, _⟩ => rfl
  simp only [c0, c1, i24l, i20, i23, i25, i29l, i28, ref_sumsA, ref_degA, Ideal.maximumf_def, Ideal.addf_def, Ideal.hostDivf_def, Ideal.ofBits_def, Ideal.ofBits_one_f32]
  exact congrArg (fun t => max t (Ideal.ofBits .f32 0x00000000#32))
    (Cert.MeanLaw.entry_law (fun k : Fin 128 => sumsA (F := Ideal) x0 x1 (ix2 r k)) (fun k => x2 (ix2 q k)) (fun k => x0 (ix2 r k)) (fun k => x4 (ix2 q k))
      (deg (F := Ideal) (dstOf x1) (ix1 r)) (x3 (ix1 q))).symm

/-! ## The second layer -/

/-- The reference's neighbour sums of its hidden features are the kernel program's, of the same hidden features. -/
theorem ref_sumsB (x0 : (⟨S40000x128, .f32⟩ : BufTy).Contents (Elt Ideal)) (x1 : (⟨S2x640000, .i32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal)) :
    val_main_v45 (F := Ideal) x0 x1 x2 x3 x4 = sumsB (F := Ideal) (hiddenOf x0 x1 x2 x3 x4) x1 := by
  rw [← ref_hidden]
  rfl

/-- The reference's result is the kernel program's network of the same arguments. -/
theorem ref_network (x0 : (⟨S40000x128, .f32⟩ : BufTy).Contents (Elt Ideal)) (x1 : (⟨S2x640000, .i32⟩ : BufTy).Contents (Elt Ideal)) (x2 : (⟨S64x128, .f32⟩ : BufTy).Contents (Elt Ideal))
    (x3 : (⟨S64, .f32⟩ : BufTy).Contents (Elt Ideal)) (x4 : (⟨S64x128, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v62 (F := Ideal) x0 x1 x2 x3 x4 x5 x6 x7 = network x0 x1 x2 x3 x4 x5 x6 x7 := by
  funext i
  obtain ⟨r, q, rfl⟩ : ∃ (r : Fin 40000) (q : Fin 64), i = ix2 r q := ⟨i 0, i 1, eq_ix2 i⟩
  rw [val_main_v62_apply, val_main_v59_apply, val_main_v56_apply, val_main_v61_apply, val_main_v58_apply, val_main_v57_apply]
  simp only [val_main_v54_apply, val_main_v53_apply, val_main_v52_apply, val_main_v51_apply, val_main_v50_apply, val_main_cst_9_apply, val_main_v55_apply, val_main_v60_apply]
  unfold network layerB
  simp only [meanB_apply, biasRow_at]
  have c0 : (ix2 r q : S40000x64.Idx) 0 = r := rfl
  have c1 : (ix2 r q : S40000x64.Idx) 1 = q := rfl
  have i56l : ∀ k : Fin 64, lidx_main_v56 (ix2 r q) k = ix2 r k := fun k => funext fun a => match a with
    | ⟨0, _⟩ => rfl
    | ⟨1, _⟩ => rfl
  have i52 : ∀ k : Fin 64, idx_main_v52 (idx_main_v53 (ix2 r k)) = ix1 r := fun k => funext fun a => match a with
    | ⟨0, _⟩ => rfl
  have i55 : ∀ k : Fin 64, idx_main_v55 (ridx_main_v56 (ix2 r q) k) = ix2 q k := fun k => funext fun a => match a with
    | ⟨0, _⟩ => rfl
    | ⟨1, _⟩ => rfl
  have i57 : idx_main_v57 (idx_main_v58 (ix2 r q)) = ix1 q := funext fun a => match a with
    | ⟨0, _⟩ => rfl
  have i61l : ∀ k : Fin 64, lidx_main_v61 (ix2 r q) k = ix2 r k := fun k => funext fun a => match a with
    | ⟨0, _⟩ => rfl
    | ⟨1, _⟩ => rfl
  have i60 : ∀ k : Fin 64, idx_main_v60 (ridx_main_v61 (ix2 r q) k) = ix2 q k := fun k => funext fun a => match a with
    | ⟨0, _⟩ => rfl
    | ⟨1, _⟩ => rfl
  simp only [c0, c1, i56l, i52, i55, i57, i61l, i60, ref_sumsB, ref_hidden, ref_degB, Ideal.maximumf_def, Ideal.addf_def, Ideal.hostDivf_def, Ideal.ofBits_def, Ideal.ofBits_one_f32]
  exact (Cert.MeanLaw.entry_law (fun k : Fin 64 => sumsB (F := Ideal) (hiddenOf x0 x1 x2 x3 x4) x1 (ix2 r k)) (fun k => x5 (ix2 q k))
      (fun k => hiddenOf x0 x1 x2 x3 x4 (ix2 r k)) (fun k => x7 (ix2 q k))
      (deg (F := Ideal) (dstOf x1) (ix1 r)) (x6 (ix1 q))).symm

end Cert.Bridge

end
-- ==== Proof.lean ====
/-
  The certificate: a two-layer mean-aggregating graph network whose per-node linear step runs in two kernel regions,
  against its jnp reference, over the extended reals.

  Both programs gather rows of the features along the edge sources, add them up at the edge targets and normalise by
  the in-degree clamped at one; each layer then adds two matrix products and a bias, the first layer followed by the
  maximum with zero. The kernel's program multiplies by the reciprocal of the clamped degree where the reference divides,
  adds the bias last where the reference adds it between the products, and contracts the untransposed weights over their
  second axis where the reference transposes them first: none of this changes an entry over the extended reals
  (Proof/MeanLaw.lean), and no input needs to be finite for it.
  The kernel's result as one function of the arguments is Proof/KernelValue.lean (over Proof/KernelBlocksA.lean and
  Proof/KernelBlocksB.lean for the two regions' arrays, Proof/KernelHost.lean for the operations around them, and
  Proof/KernelRun.lean for the run); that the reference computes the same function is Proof/Reference.lean.
-/
import proofs.«179625_j19636590477698_1_alg».proof.Defs
import proofs.«179625_j19636590477698_1_alg».proof.Proof.Gen.Kernel
import proofs.«179625_j19636590477698_1_alg».proof.Proof.Gen.Kernel.Skeleton
import proofs.«179625_j19636590477698_1_alg».proof.Proof.Gen.Kernel.Launch
import proofs.«179625_j19636590477698_1_alg».proof.Proof.Gen.Kernel.Points
import proofs.«179625_j19636590477698_1_alg».proof.Proof.Gen.Kernel.Frame
import proofs.«179625_j19636590477698_1_alg».proof.Proof.Gen.KernelIdeal
import proofs.«179625_j19636590477698_1_alg».proof.Proof.Gen.KernelIdeal.Skeleton
import proofs.«179625_j19636590477698_1_alg».proof.Proof.Gen.KernelIdeal.Launch
import proofs.«179625_j19636590477698_1_alg».proof.Proof.Gen.KernelIdeal.Points
import proofs.«179625_j19636590477698_1_alg».proof.Proof.Gen.KernelIdeal.Frame
import proofs.«179625_j19636590477698_1_alg».proof.Proof.Gen.ReferenceIdeal
import proofs.«179625_j19636590477698_1_alg».proof.Proof.Gen.ReferenceIdeal.Run
import proofs.«179625_j19636590477698_1_alg».proof.Proof.Gen.ReferenceIdeal.Read
import proofs.«179625_j19636590477698_1_alg».proof.Proof.Gen.Pre_finite_inputs
import proofs.«179625_j19636590477698_1_alg».proof.Proof.KernelValue
import proofs.«179625_j19636590477698_1_alg».proof.Proof.Reference
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments as their result. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.Bridge.ref_network]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
